-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S8x8 : Shape := ⟨2, ![8, 8]⟩
abbrev S8 : Shape := ⟨1, ![8]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S65536x1024 .f32) (main_arg1 : FVec F S8x8 .f32) (main_arg2 : FVec F S8 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S65536x1024 : Shape := ⟨2, ![65536, 1024]⟩
abbrev S8x8 : Shape := ⟨2, ![8, 8]⟩
abbrev S8 : Shape := ⟨1, ![8]⟩
abbrev S1024x1024 : Shape := ⟨2, ![1024, 1024]⟩
abbrev S1024x8x128 : Shape := ⟨3, ![1024, 8, 128]⟩
abbrev S1024x8 : Shape := ⟨2, ![1024, 8]⟩
abbrev S1024x1x8 : Shape := ⟨3, ![1024, 1, 8]⟩
abbrev S1x8x8 : Shape := ⟨3, ![1, 8, 8]⟩
abbrev S1024x8x8 : Shape := ⟨3, ![1024, 8, 8]⟩
abbrev S1x8 : Shape := ⟨2, ![1, 8]⟩
abbrev S1024x8x1 : Shape := ⟨3, ![1024, 8, 1]⟩

abbrev nBuf : Space → Nat
  | .hbm => 4
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S8x8, .f32⟩
  | .hbm, ⟨2, _⟩ => ⟨S8, .f32⟩
  | .hbm, ⟨3, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S8x8, .f32⟩
  | .local _ .vmem, ⟨3, _⟩ => ⟨S8, .f32⟩
  | .local _ .vmem, ⟨4, _⟩ => ⟨S1024x1024, .f32⟩
  | .local _ .vmem, ⟨5, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x8x128 : S1024x1024.ShapeCasts S1024x8x128
  reduces_S1024x8x128_S1024x8 : S1024x8x128.Reduces [2] S1024x8
  inb_S8x8_S8x8_0_0 : ∀ a, (![0, 0] : Fin 2 → Nat) a + S8x8.size a ≤ S8x8.size a
  h_S8x8 : 0 < S8x8.numel
  inb_S8_S8_0 : ∀ a, (![0] : Fin 1 → Nat) a + S8.size a ≤ S8.size a
  h_S8 : 0 < S8.numel
  shapeCasts_S1024x8_S1024x1x8 : S1024x8.ShapeCasts S1024x1x8
  shapeCasts_S8x8_S1x8x8 : S8x8.ShapeCasts S1x8x8
  broadcasts_S1024x1x8_S1024x8x8 : S1024x1x8.Broadcasts S1024x8x8
  broadcasts_S1x8x8_S1024x8x8 : S1x8x8.Broadcasts S1024x8x8
  reduces_S1024x8x8_S1024x8 : S1024x8x8.Reduces [2] S1024x8
  shapeCasts_S8_S1x8 : S8.ShapeCasts S1x8
  broadcasts_S1x8_S1024x8 : S1x8.Broadcasts S1024x8
  shapeCasts_S1024x8_S1024x8x1 : S1024x8.ShapeCasts S1024x8x1
  broadcasts_S1024x8x1_S1024x8x128 : S1024x8x1.Broadcasts S1024x8x128
  shapeCasts_S1024x8x128_S1024x1024 : S1024x8x128.ShapeCasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S8x8 : Shape := ⟨2, ![8, 8]⟩
abbrev S8 : Shape := ⟨1, ![8]⟩
abbrev S65536x8x128 : Shape := ⟨3, ![65536, 8, 128]⟩
abbrev S_ : Shape := ⟨0, ![]⟩
abbrev S65536x8 : Shape := ⟨2, ![65536, 8]⟩
abbrev S1x8 : Shape := ⟨2, ![1, 8]⟩
abbrev S65536x8x1 : Shape := ⟨3, ![65536, 8, 1]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8, .f32⟩
  | .hbm, ⟨2, _⟩ => ⟨S8, .f32⟩
  | .hbm, ⟨3, _⟩ => ⟨S65536x8x128, .f32⟩
  | .hbm, ⟨4, _⟩ => ⟨S_, .f32⟩
  | .hbm, ⟨5, _⟩ => ⟨S65536x8, .f32⟩
  | .hbm, ⟨6, _⟩ => ⟨S8x8, .f32⟩
  | .hbm, ⟨7, _⟩ => ⟨S65536x8, .f32⟩
  | .hbm, ⟨8, _⟩ => ⟨S1x8, .f32⟩
  | .hbm, ⟨9, _⟩ => ⟨S65536x8, .f32⟩
  | .hbm, ⟨10, _⟩ => ⟨S65536x8, .f32⟩
  | .hbm, ⟨11, _⟩ => ⟨S65536x8, .f32⟩
  | .hbm, ⟨12, _⟩ => ⟨S65536x8, .f32⟩
  | .hbm, ⟨13, _⟩ => ⟨S_, .f32⟩
  | .hbm, ⟨14, _⟩ => ⟨S65536x8, .f32⟩
  | .hbm, ⟨15, _⟩ => ⟨S65536x8, .f32⟩
  | .hbm, ⟨16, _⟩ => ⟨S_, .f32⟩
  | .hbm, ⟨17, _⟩ => ⟨S65536x8, .f32⟩
  | .hbm, ⟨18, _⟩ => ⟨S65536x8, .f32⟩
  | .hbm, ⟨19, _⟩ => ⟨S65536x8x1, .f32⟩
  | .hbm, ⟨20, _⟩ => ⟨S65536x8x128, .f32⟩
  | .hbm, ⟨21, _⟩ => ⟨S65536x8x128, .f32⟩
  | .hbm, ⟨22, _⟩ => ⟨S65536x1024, .f32⟩
  | .hbm, ⟨23, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S65536x1024_S65536x8x128 : S65536x1024.ShapeCasts S65536x8x128
  reducesTo_S65536x8x128_S65536x8_d2 : S65536x8x128.ReducesTo [2] S65536x8
  h_S_ : 0 < S_.numel
  transposes_S8x8_S8x8_1_0 : S8x8.Transposes [1, 0] S8x8
  bcast_S8_S1x8_1 : S8.BroadcastsInDim S1x8 (![1] : Fin 1 → Fin S1x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)
  bcast_S65536x8_S65536x8x1_0_1 : S65536x8.BroadcastsInDim S65536x8x1 (![0, 1] : Fin 2 → Fin S65536x8x1.rank)
  bcast_S65536x8x1_S65536x8x128_0_1_2 : S65536x8x1.BroadcastsInDim S65536x8x128 (![0, 1, 2] : Fin 3 → Fin S65536x8x128.rank)
  shapeCasts_S65536x8x128_S65536x1024 : S65536x8x128.ShapeCasts S65536x1024
  dot_S65536x8_S8x8_S65536x8_1_0_0_1_n_n_wf : DotDims.WF S65536x8 S8x8 S65536x8 [1] [0] [0] [1] [] []

variable [Facts₀]

def dot_S65536x8_S8x8_S65536x8_1_0_0_1_n_n : DotDims S65536x8 S8x8 S65536x8 where
  lhsContracting := [1]
  rhsContracting := [0]
  lhsNonContracting := [0]
  rhsNonContracting := [1]
  lhsBatch := []
  rhsBatch := []
  wf := dot_S65536x8_S8x8_S65536x8_1_0_0_1_n_n_wf

class Facts : Prop extends Facts₀ where

variable [Facts]
-- ==== Proof.LibSegmentOps.lean ====
/-
  General lemmas: the vector operations of a kernel that works on the SEGMENTS of a row — an [a, n] block viewed
  as [a, b, c] with n = b·c — read at an index, at the ideal instance.

  * the two views: [a, n] → [a, b, c] reads, at (p, g, s), column g·c + s of row p; and back;
  * a unit axis put in the middle, [a, b] → [a, 1, b], or at the end, [a, b] → [a, b, 1];
  * the three broadcasts along one axis of a rank-3 shape: [a, 1, c] → [a, b, c], [1, b, c] → [a, b, c],
    [a, b, 1] → [a, b, c];
  * a sum and a maximum over the lanes (axis 2) of an [a, b, c] vector, at (p, g): the sum, and the fold of max from
    the accumulator's value, over s of the source at (p, g, s); the host's maximum over the same axis likewise.
-/
import Idealize.ShloMosaic.PureOps.Ideal.Laws
import Idealize.ShloMosaic.Lib.ValueIdx
import Idealize.ShloMosaic.Lib.Pipeline.Value

noncomputable section

namespace Cert.SegmentOps

open Idealize.ShloMosaic Idealize.ShloMosaic.ValueIdx

variable {α : Type}

/-! ## The two views of a row as segments -/

/-- An [a, n] array viewed as [a, b, c], n = b·c: at (p, g, s) it reads column q = g·c + s of row p. -/
theorem shapeCast_split_apply {a b c n : ℕ} (hn : n = b * c) (x : (⟨2, ![a, n]⟩ : Shape).Idx → α)
    (h : (⟨2, ![a, n]⟩ : Shape).ShapeCasts ⟨3, ![a, b, c]⟩) (p : Fin a) (g : Fin b) (s : Fin c) (q : Fin n)
    (hq : q.val = g.val * c + s.val) : shapeCast ⟨3, ![a, b, c]⟩ x h (ix3 p g s) = x (ix2 p q) :=
  shapeCast_apply x h _ _ (by
    rw [Shape.rowMajor_val_two, Shape.rowMajor_val_three]
    show p.val * n + q.val = (p.val * b + g.val) * c + s.val
    rw [hq, hn, Nat.add_mul, Nat.mul_assoc, Nat.add_assoc])

/-- An [a, b, c] array viewed as [a, n], n = b·c: at (p, q) with q = g·c + s it reads the entry (p, g, s). -/
theorem shapeCast_merge_apply {a b c n : ℕ} (hn : n = b * c) (v : (⟨3, ![a, b, c]⟩ : Shape).Idx → α)
    (h : (⟨3, ![a, b, c]⟩ : Shape).ShapeCasts ⟨2, ![a, n]⟩) (p : Fin a) (g : Fin b) (s : Fin c) (q : Fin n)
    (hq : q.val = g.val * c + s.val) : shapeCast ⟨2, ![a, n]⟩ v h (ix2 p q) = v (ix3 p g s) :=
  shapeCast_apply v h _ _ (by
    rw [Shape.rowMajor_val_three, Shape.rowMajor_val_two]
    show (p.val * b + g.val) * c + s.val = p.val * n + q.val
    rw [hq, hn, Nat.add_mul, Nat.mul_assoc, Nat.add_assoc])

/-! ## A unit axis in the middle or at the end -/

/-- An [a, b] array cast to [a, 1, b] reads, at (p, u, k), the operand at (p, k). -/
theorem shapeCast_ab_a1b_apply {a b : ℕ} (v : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ v h (ix3 p u k) = v (ix2 p k) :=
  shapeCast_apply v h _ _ (by
    have hu : u.val = 0 := by omega
    rw [Shape.rowMajor_val_two, Shape.rowMajor_val_three]
    show p.val * b + k.val = (p.val * 1 + u.val) * b + k.val
    rw [hu, Nat.mul_one, Nat.add_zero])

/-- An [a, b] array cast to [a, b, 1] reads, at (p, g, u), the operand at (p, g). -/
theorem shapeCast_ab_ab1_apply {a b : ℕ} (v : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ v h (ix3 p g u) = v (ix2 p g) :=
  shapeCast_apply v h _ _ (by
    have hu : u.val = 0 := by omega
    rw [Shape.rowMajor_val_two, Shape.rowMajor_val_three]
    show p.val * b + g.val = (p.val * b + g.val) * 1 + u.val
    rw [hu, Nat.mul_one, Nat.add_zero])

/-! ## Broadcasts along one axis of a rank-3 shape -/

/-- An [a, 1, c] array broadcast to [a, b, c] reads, at (p, g, k), the operand at (p, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (g : Fin b) (k : Fin c) :
    broadcastTo ⟨3, ![a, b, c]⟩ v h (ix3 p g k) = v (ix3 p (0 : Fin 1) k) := by
  refine broadcastTo_apply v h (ix3 p g k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A [1, b, c] array broadcast to [a, b, c] reads, at (p, g, k), the operand at (0, g, k). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (g : Fin b) (k : Fin c) :
    broadcastTo ⟨3, ![a, b, c]⟩ v h (ix3 p g k) = v (ix3 (0 : Fin 1) g k) := by
  refine broadcastTo_apply v h (ix3 p g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- An [a, b, 1] array broadcast to [a, b, c] reads, at (p, g, s), the operand at (p, g, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (g : Fin b) (s : Fin c) :
    broadcastTo ⟨3, ![a, b, c]⟩ v h (ix3 p g s) = v (ix3 p g (0 : Fin 1)) := by
  refine broadcastTo_apply v h (ix3 p g s) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-! ## The logistic at an index -/

/-- The kernel's logistic, lane by lane, is the ideal logistic of the lane. -/
theorem logistic_apply {s : Shape} {φ : FTy} (v : FVec Ideal s φ) (i : s.Idx) : logistic v i = Ideal.logistic (v i) := rfl

/-! ## Reductions over the lanes of a rank-3 vector -/

/-- The lanes' coordinate put back at (p, g): the index (p, g, s). -/
theorem lift_lanes {a b c : ℕ} (h : (⟨3, ![a, b, c]⟩ : Shape).Reduces [2] ⟨2, ![a, b]⟩) (p : Fin a) (g : Fin b) (s : Fin c) :
    h.lift (ix2 p g) s = ix3 p g s :=
  funext fun ax => Fin.ext (by
    match ax with
    | ⟨0, _⟩ => rfl
    | ⟨1, _⟩ => rfl
    | ⟨2, _⟩ => rfl)

/-- A sum over the lanes (axis 2) of an [a, b, c] vector, read at (p, g): the sum over s of the source at (p, g, s). -/
theorem laneSum_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (g : Fin b) :
    multiReduction .add [2] ⟨2, ![a, b]⟩ src acc h hφ hacc (ix2 p g) = ∑ s : Fin c, src (ix3 p g s) := by
  rw [Ideal.multiReduction_add_single]
  exact Finset.sum_congr rfl fun s _ => congrArg src (lift_lanes h p g s)

/-- A maximum over the lanes (axis 2) of an [a, b, c] vector, read at (p, g): the fold of max, from the accumulator's
    value, over s of the source at (p, g, s). -/
theorem laneMax_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (p : Fin a) (g : Fin b) :
    multiReduction .maximumf [2] ⟨2, ![a, b]⟩ src acc h hφ hacc (ix2 p g)
      = (Finset.univ : Finset (Fin c)).fold max (Ideal.ofBits φ acc) (fun s => src (ix3 p g s)) := by
  refine (Ideal.multiReduction_maximumf_single src acc h hφ hacc (ix2 p g)).trans ?_
  have e : (src ∘ h.lift (ix2 p g)) = fun s : Fin c => src (ix3 p g s) :=
    funext fun s => congrArg src (lift_lanes h p g s)
  rw [e]
  rfl

/-- The host's maximum over the same axis, read at (p, g): the fold of max, from the initial value's one element, over s
    of the operand at (p, g, s). -/
theorem hostLaneMax_apply {a b c : ℕ} {φ : FTy} {u : Shape} (x : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (g : Fin b) :
    Host.reduce (FloatOps.maximumf (F := Ideal) (φ := φ)) x init h' hu (ix2 p g)
      = (Finset.univ : Finset (Fin c)).fold max (init (Shape.Idx.first hu)) (fun s => x (ix3 p g s)) := by
  refine (Host.reduce_eq_fold_single (FloatOps.maximumf (F := Ideal) (φ := φ)) x init h' h hu (ix2 p g)).trans ?_
  have e : (x ∘ h.lift (ix2 p g)) = fun s : Fin c => x (ix3 p g s) :=
    funext fun s => congrArg x (lift_lanes h p g s)
  rw [e]
  rfl

end Cert.SegmentOps

end
-- ==== Proof.SegGate.lean ====
/-
  The segment gate as one function of the whole arrays.

  A row of 1024 numbers is eight segments of 128 lanes. Each segment's maximum is pooled; the eight maxima go through
  an 8×8 linear layer with a bias and a logistic; every entry of the row is scaled by the gate of its own segment and
  added back to itself:

      out[p, 128·g + s] = x[p, 128·g + s] + x[p, 128·g + s] · logistic (Σ_k max_k(p) · W[g, k] + b[g]),
      max_k(p) = the maximum over s of x[p, 128·k + s], taken from −∞.

  Stated for any number of rows R: a row's result depends on that row alone (gated_row), which is what lets a block of
  rows be computed by itself.
-/
import Idealize.ShloMosaic.PureOps.Ideal
import Idealize.ShloMosaic.Lib.ValueIdx

noncomputable section

namespace Cert.SegGate

open Idealize.ShloMosaic Idealize.ShloMosaic.ValueIdx
open scoped BigOperators

/-! ## Columns as lanes of segments -/

/-- Lane s of segment g is column 128·g + s. -/
def col (g : Fin 8) (s : Fin 128) : Fin 1024 := ⟨g.val * 128 + s.val, by have := g.isLt; have := s.isLt; omega⟩

theorem col_val (g : Fin 8) (s : Fin 128) : (col g s).val = g.val * 128 + s.val := rfl

/-- Every column is a lane of a segment. -/
theorem exists_col (q : Fin 1024) : ∃ (g : Fin 8) (s : Fin 128), q = col g s :=
  ⟨⟨q.val / 128, by have := q.isLt; omega⟩, ⟨q.val % 128, Nat.mod_lt _ (by decide)⟩,
    Fin.ext (by show q.val = q.val / 128 * 128 + q.val % 128; omega)⟩

/-- The segment a column lies in. -/
def seg (q : Fin 1024) : Fin 8 := ⟨q.val / 128, by have := q.isLt; omega⟩

theorem seg_col (g : Fin 8) (s : Fin 128) : seg (col g s) = g :=
  Fin.ext (by show (g.val * 128 + s.val) / 128 = g.val; have := s.isLt; omega)

/-! ## The result -/

variable {R : ℕ}

/-- The maximum of segment k of row p, taken from −∞ (the f32 word of −∞, kept as a word). -/
def segMax (x : (⟨2, ![R, 1024]⟩ : Shape).Idx → EReal) (p : Fin R) (k : Fin 8) : EReal :=
  (Finset.univ : Finset (Fin 128)).fold max (Ideal.ofBits .f32 0xFF800000#32) (fun s => x (ix2 p (col k s)))

/-- The gate of segment g of row p: the logistic of the pooled maxima through row g of the weights, plus the bias. -/
def gate (x : (⟨2, ![R, 1024]⟩ : Shape).Idx → EReal) (W : (⟨2, ![8, 8]⟩ : Shape).Idx → EReal)
    (b : (⟨1, ![8]⟩ : Shape).Idx → EReal) (p : Fin R) (g : Fin 8) : EReal :=
  Ideal.logistic ((∑ k : Fin 8, segMax x p k * W (ix2 g k)) + b (ix1 g))

/-- The result array: each entry plus itself scaled by its segment's gate. -/
def gated (x : (⟨2, ![R, 1024]⟩ : Shape).Idx → EReal) (W : (⟨2, ![8, 8]⟩ : Shape).Idx → EReal)
    (b : (⟨1, ![8]⟩ : Shape).Idx → EReal) : (⟨2, ![R, 1024]⟩ : Shape).Idx → EReal :=
  fun i => x i + x i * gate x W b (i 0) (seg (i 1))

/-- The result at lane s of segment g of row p. -/
theorem gated_apply (x : (⟨2, ![R, 1024]⟩ : Shape).Idx → EReal) (W : (⟨2, ![8, 8]⟩ : Shape).Idx → EReal)
    (b : (⟨1, ![8]⟩ : Shape).Idx → EReal) (p : Fin R) (g : Fin 8) (s : Fin 128) :
    gated x W b (ix2 p (col g s)) = x (ix2 p (col g s)) + x (ix2 p (col g s)) * gate x W b p g := by
  show x (ix2 p (col g s)) + x (ix2 p (col g s)) * gate x W b p (seg (col g s)) = _
  rw [seg_col]

/-- A row's result depends on that row alone: two arrays (of any heights) that agree on a row agree on its result. -/
theorem gated_row {R' : ℕ} (x : (⟨2, ![R, 1024]⟩ : Shape).Idx → EReal) (x' : (⟨2, ![R', 1024]⟩ : Shape).Idx → EReal)
    (W : (⟨2, ![8, 8]⟩ : Shape).Idx → EReal) (b : (⟨1, ![8]⟩ : Shape).Idx → EReal) (p : Fin R) (p' : Fin R')
    (hrow : ∀ q : Fin 1024, x (ix2 p q) = x' (ix2 p' q)) (q : Fin 1024) :
    gated x W b (ix2 p q) = gated x' W b (ix2 p' q) := by
  obtain ⟨g, s, rfl⟩ := exists_col q
  have hmax : ∀ k, segMax x p k = segMax x' p' k := fun k => by
    have e : (fun s : Fin 128 => x (ix2 p (col k s))) = fun s => x' (ix2 p' (col k s)) :=
      funext fun s => hrow (col k s)
    unfold segMax
    rw [e]
  have hgate : gate x W b p g = gate x' W b p' g := by
    unfold gate
    simp only [hmax]
  rw [gated_apply, gated_apply, hrow, hgate]

/-- The same at any two indices that share a column and whose rows agree. -/
theorem gated_congr {R' : ℕ} (x : (⟨2, ![R, 1024]⟩ : Shape).Idx → EReal) (x' : (⟨2, ![R', 1024]⟩ : Shape).Idx → EReal)
    (W : (⟨2, ![8, 8]⟩ : Shape).Idx → EReal) (b : (⟨1, ![8]⟩ : Shape).Idx → EReal)
    (j : (⟨2, ![R, 1024]⟩ : Shape).Idx) (j' : (⟨2, ![R', 1024]⟩ : Shape).Idx) (hcol : (j 1).val = (j' 1).val)
    (hrow : ∀ q : Fin 1024, x (ix2 (j 0) q) = x' (ix2 (j' 0) q)) : gated x W b j = gated x' W b j' :=
  calc gated x W b j = gated x W b (ix2 (j 0) (j 1)) := congrArg _ (eq_ix2 j)
    _ = gated x' W b (ix2 (j' 0) (j 1)) := gated_row x x' W b (j 0) (j' 0) hrow (j 1)
    _ = gated x' W b (ix2 (j' 0) (j' 1)) := congrArg (fun z : Fin 1024 => gated x' W b (ix2 (j' 0) z)) (Fin.ext hcol)
    _ = gated x' W b j' := congrArg _ (eq_ix2 j').symm

end Cert.SegGate

end
-- ==== Proof.Pay.lean ====
/-
  The kernel body's one stored value is the segment gate of its block.

  The body loads a block of 1024 rows, the weights and the bias, and stores one value. Read at lane s of segment g of
  row p, that value is the block's entry plus itself times the logistic of (Σ_k max_k(p) · W[g, k]) + b[g]: the view of
  the row as segments, the lane maximum, the product spread over [row, g, k] and summed over k, the bias spread down the
  rows, and the gate spread back over the lanes are each read at the index, outermost first.
-/
import proofs.«150787_j47124381172385_1_alg».proof.Proof.Gen.KernelIdeal.Skeleton
import proofs.«150787_j47124381172385_1_alg».proof.Proof.LibSegmentOps
import proofs.«150787_j47124381172385_1_alg».proof.Proof.SegGate
import Idealize.ShloMosaic.Lib.ValueLayout

noncomputable section

namespace Cert.KernelIdeal.Body

open Idealize.ShloMosaic Idealize.ShloMosaic.ValueIdx Cert.KernelIdeal Cert.KernelIdeal.Gen Cert.SegmentOps Cert.SegGate

/-- The block viewed as segments, at (p, k, s): column 128·k + s of row p. -/
theorem segs_apply (x0 : FVec Ideal S1024x1024 .f32) (p : Fin 1024) (k : Fin 8) (s : Fin 128) :
    shapeCast S1024x8x128 x0 Facts₀.shapeCasts_S1024x1024_S1024x8x128 (ix3 p k s) = x0 (ix2 p (col k s)) :=
  shapeCast_split_apply rfl x0 _ p k s (col k s) rfl

/-- The stored value of the body, index by index, is the segment gate of the loaded block. -/
theorem pay_eq (x0 : FVec Ideal S1024x1024 .f32) (w : FVec Ideal S8x8 .f32) (bb : FVec Ideal S8 .f32) :
    k0_pay1 (F := Ideal) x0 w bb = gated x0 w bb := by
  funext i
  obtain ⟨p, q, rfl⟩ : ∃ (p : Fin 1024) (q : Fin 1024), i = ix2 p q := ⟨i 0, i 1, eq_ix2 i⟩
  obtain ⟨g, s, rfl⟩ := exists_col q
  rw [gated_apply]
  unfold k0_pay1
  dsimp only
  rw [addf_apply, shapeCast_merge_apply rfl _ _ p g s (col g s) rfl, mulf_apply, segs_apply,
    broadcastTo_ab1_abc_apply, shapeCast_ab_ab1_apply, logistic_apply, addf_apply,
    broadcastTo_1b_ab_apply, shapeCast_a_1a_apply]
  unfold gate
  refine congrArg (fun z => x0 (ix2 p (col g s)) + x0 (ix2 p (col g s)) * Ideal.logistic (z + bb (ix1 g))) ?_
  refine (laneSum_apply _ _ _ _ _ p g).trans ?_
  refine Finset.sum_congr rfl fun k _ => ?_
  rw [mulf_apply, broadcastTo_a1c_abc_apply, shapeCast_ab_a1b_apply, broadcastTo_1bc_abc_apply,
    shapeCast_ab_1ab_apply]
  refine congrArg (fun z => z * w (ix2 g k)) ?_
  refine (laneMax_apply _ _ _ _ _ p k).trans ?_
  unfold segMax
  simp only [segs_apply]

end Cert.KernelIdeal.Body

end
-- ==== Proof.Blocks.lean ====
/-
  From blocks to the array.

  The grid has 64 points. Point t stages rows 1024·t … 1024·t + 1023 of x (all 1024 columns) and the whole of W and of
  b, and writes back the same rows of the result. A row's segment gate depends on that row alone, so what point t
  writes back is block t of the segment gate of the WHOLE arrays; the 64 blocks tile the 65536 rows, so the result
  array ends holding the segment gate of the arrays as launched.
-/
import proofs.«150787_j47124381172385_1_alg».proof.Proof.Gen.KernelIdeal.Value
import proofs.«150787_j47124381172385_1_alg».proof.Proof.Pay
import Idealize.ShloMosaic.Lib.Pipeline.Value

noncomputable section

namespace Cert.KernelIdeal.Whole

open Cert.KernelIdeal Cert.KernelIdeal.Gen Cert.KernelIdeal.Value Cert.KernelIdeal.Body Cert.SegGate
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 :=
  funext fun a => by match a with | ⟨0, _⟩ => rfl | ⟨1, _⟩ => rfl

theorem zero1 : (![0] : Fin 1 → Nat) = fun _ => 0 :=
  funext fun a => by match a with | ⟨0, _⟩ => rfl

/-- The index maps over the 64 points: x's and the result's blocks move down the rows with the point; W's and b's stay. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- The segment gate of the three arrays as launched. -/
abbrev result (c : Dev nD) : S65536x1024.Idx → Elt Ideal .f32 :=
  gated (R := 65536) (m ((c : Thread nD τ).loc main_arg0)) (m ((c : Thread nD τ).loc main_arg1)) (m ((c : Thread nD τ).loc main_arg2))

/-- Row p of x's block at point t is row 1024·t + p of x. -/
theorem xblock_apply (c : Dev nD) (t : Fin cfg0.N) (p q : Fin 1024) (P : Fin 65536) (hP : P.val = t.val * 1024 + p.val) :
    (iblk m c 0 t : Vec Ideal S1024x1024 .f32) (ix2 p q)
      = (m ((c : Thread nD τ).loc main_arg0) : S65536x1024.Idx → Elt Ideal .f32) (ix2 P q) := by
  obtain ⟨e0, e1, -⟩ := idx_facts t
  show V m c main_arg0 (((cfg0.win 0).blk t).view.emb (ix2 p q)) = V m c main_arg0 (ix2 P q)
  refine congrArg _ (funext fun a => Fin.ext ?_)
  match a with
  | ⟨0, _⟩ => show win0_0.index t (0 : Fin 2) * 1024 + 1 * p.val = P.val; omega
  | ⟨1, _⟩ => show win0_0.index t (1 : Fin 2) * 1024 + 1 * q.val = q.val; omega

/-- W's block at every point is the whole of W. -/
theorem wblock_eq (c : Dev nD) (t : Fin cfg0.N) :
    (iblk m c 1 t : Vec Ideal S8x8 .f32) = m ((c : Thread nD τ).loc main_arg1) := by
  obtain ⟨-, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 8 + 1 * (y 0).val = (y 0).val; omega
  | ⟨1, _⟩ => show win0_1.index t (1 : Fin 2) * 8 + 1 * (y 1).val = (y 1).val; omega

/-- b's block at every point is the whole of b. -/
theorem bblock_eq (c : Dev nD) (t : Fin cfg0.N) :
    (iblk m c 2 t : Vec Ideal S8 .f32) = m ((c : Thread nD τ).loc main_arg2) := by
  obtain ⟨-, -, -, -, -, -, e0⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 8 + 1 * (y 0).val = (y 0).val; omega

/-- What point t writes back is block t of the segment gate of the whole arrays. -/
theorem flushed_eq (c : Dev nD) (t : Fin cfg0.N) :
    (dats m 0 c).flushed 3 t = ((cfg0.win 3).blk t).view.read (Elt Ideal) (result m c) := by
  rw [flushed3]
  unfold out0_3
  rw [View.canon_unit_zero zero2]
  simp only [View.ld_unit_zero (S := S1024x1024) zero2, View.ld_unit_zero (S := S8x8) zero2, View.ld_unit_zero (S := S8) zero1]
  rw [pay_eq, wblock_eq, bblock_eq]
  obtain ⟨-, -, e0, e1, -⟩ := idx_facts t
  funext j
  show gated (R := 1024) (iblk m c 0 t) (m ((c : Thread nD τ).loc main_arg1)) (m ((c : Thread nD τ).loc main_arg2)) j
    = result m c (((cfg0.win 3).blk t).view.emb j)
  refine gated_congr _ _ _ _ j _ ?_ fun q => ?_
  · show (j 1).val = win0_3.index t (1 : Fin 2) * 1024 + 1 * (j 1).val
    omega
  · refine xblock_apply m c t (j 0) q _ ?_
    show win0_3.index t (0 : Fin 2) * 1024 + 1 * (j 0).val = t.val * 1024 + (j 0).val
    omega

/-- Every index of the result array lies in the block of the point its row belongs to. -/
theorem cover (i : S65536x1024.Idx) :
    ∃ t : Fin cfg0.N, (cfg0.win 3).flush t = true ∧ i ∈ ((cfg0.win 3).blk t).view.set := by
  have h0 : (i 0).val < 65536 := (i 0).isLt
  have h1 : (i 1).val < 1024 := (i 1).isLt
  have hN : cfg0.N = 64 := N_0
  have hlt : (i 0).val / 1024 < cfg0.N := by rw [hN]; omega
  obtain ⟨-, -, e0, e1, -⟩ := idx_facts ⟨(i 0).val / 1024, hlt⟩
  refine ⟨⟨(i 0).val / 1024, hlt⟩, flush0_3 _, ?_⟩
  show i ∈ ((View.whole main_v0).slice (win0_3.rect ⟨(i 0).val / 1024, hlt⟩)).set
  rw [View.set_slice_whole, Rect.mem_set_unit]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [e1]
    omega

/-- So the result array ends holding the segment gate of the arrays as launched. -/
theorem final (c : Dev nD) : (dats m 0 c).arrAt 3 cfg0.N = result m c :=
  (dats m 0 c).arrAt_eq_of_cover 3 (result m c) (fun t _ => flushed_eq m c t) cover

/-- The run, read: the result array at the segment gate of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.Ref.lean ====
/-
  The reference's last stage is the segment gate of its argument arrays.

  The reference views each of the 65536 rows as eight segments, takes each segment's maximum on the host (from −∞),
  multiplies the [65536, 8] maxima by the transposed weights (a contraction over k of max_k(p) · W[g, k]), adds the bias,
  spells the logistic as 1 / (1 + exp (−z)), spreads the gate over the 128 lanes of its segment, scales and adds back.
  At the ideal instance 1 / (1 + exp (−z)) IS the logistic (its definition, with the word of 1.0 read as 1), so read at
  lane s of segment g of row p the stage is the same function of x, W and b as the kernel's.
-/
import proofs.«150787_j47124381172385_1_alg».proof.Proof.Gen.ReferenceIdeal.Read
import proofs.«150787_j47124381172385_1_alg».proof.Proof.LibSegmentOps
import proofs.«150787_j47124381172385_1_alg».proof.Proof.SegGate
import Idealize.ShloMosaic.Lib.IdealHost

noncomputable section

namespace Cert.ReferenceIdeal.Stage

open Idealize.ShloMosaic Idealize.ShloMosaic.ValueIdx Cert.ReferenceIdeal Cert.ReferenceIdeal.Read Cert.SegmentOps Cert.SegGate

/-! ## The composed index functions at coordinates -/

/-- Column 128·g + s of row p, as the reshaped array's index: (p, g, s). -/
theorem idx_merge (p : Fin 65536) (g : Fin 8) (s : Fin 128) : idx_main_v16 (ix2 p (col g s)) = ix3 p g s :=
  funext fun a => Fin.ext (by
    have hg := g.isLt; have hs := s.isLt
    match a with
    | ⟨0, _⟩ => show (p.val * 1024 + (g.val * 128 + s.val)) / 1024 = p.val; omega
    | ⟨1, _⟩ => show (p.val * 1024 + (g.val * 128 + s.val)) / 128 % 8 = g.val; omega
    | ⟨2, _⟩ => show (p.val * 1024 + (g.val * 128 + s.val)) % 128 = s.val; omega)

/-- Entry (p, k, s) of the row viewed as segments, as the argument's index: column 128·k + s of row p. -/
theorem idx_split (p : Fin 65536) (k : Fin 8) (s : Fin 128) : idx_main_v0 (ix3 p k s) = ix2 p (col k s) :=
  funext fun a => Fin.ext (by
    have hk := k.isLt; have hs := s.isLt
    match a with
    | ⟨0, _⟩ => show ((p.val * 8 + k.val) * 128 + s.val) / 1024 = p.val; omega
    | ⟨1, _⟩ => show ((p.val * 8 + k.val) * 128 + s.val) % 1024 = k.val * 128 + s.val; omega)

/-- The gate spread over the lanes reads the column entry (p, g, 0); -/
theorem idx_lanes (p : Fin 65536) (g : Fin 8) (s : Fin 128) : idx_main_v14 (ix3 p g s) = ix3 p g (0 : Fin 1) :=
  funext fun a => Fin.ext (by
    match a with
    | ⟨0, _⟩ => rfl
    | ⟨1, _⟩ => rfl
    | ⟨2, _⟩ => rfl)

/-- which is the gate at (p, g). -/
theorem idx_column (p : Fin 65536) (g : Fin 8) (u : Fin 1) : idx_main_v13 (ix3 p g u) = ix2 p g :=
  funext fun a => Fin.ext (by
    match a with
    | ⟨0, _⟩ => rfl
    | ⟨1, _⟩ => rfl)

/-- The bias spread down the rows reads the one row's entry g; -/
theorem idx_rows (p : Fin 65536) (g : Fin 8) : idx_main_v5 (ix2 p g) = ix2 (0 : Fin 1) g :=
  funext fun a => Fin.ext (by
    match a with
    | ⟨0, _⟩ => rfl
    | ⟨1, _⟩ => rfl)

/-- which is the bias at g. -/
theorem idx_bias (u : Fin 1) (g : Fin 8) : idx_main_v4 (ix2 u g) = ix1 g :=
  funext fun a => Fin.ext (by
    match a with
    | ⟨0, _⟩ => rfl)

/-- The contraction's left operand at (p, g), k is the pooled maximum (p, k); -/
theorem idx_lhs (p : Fin 65536) (g k : Fin 8) : lidx_main_v3 (ix2 p g) k = ix2 p k :=
  funext fun a => Fin.ext (by
    match a with
    | ⟨0, _⟩ => rfl
    | ⟨1, _⟩ => rfl)

/-- its right operand the transposed weights at (k, g), -/
theorem idx_rhs (p : Fin 65536) (g k : Fin 8) : ridx_main_v3 (ix2 p g) k = ix2 k g :=
  funext fun a => Fin.ext (by
    match a with
    | ⟨0, _⟩ => rfl
    | ⟨1, _⟩ => rfl)

/-- that is, the weights at (g, k). -/
theorem idx_transpose (k g : Fin 8) : idx_main_v2 (ix2 k g) = ix2 g k :=
  funext fun a => Fin.ext (by
    match a with
    | ⟨0, _⟩ => rfl
    | ⟨1, _⟩ => rfl)

/-! ## The stages -/

variable (x0 : FVec Ideal S65536x1024 .f32) (x1 : FVec Ideal S8x8 .f32) (x2 : FVec Ideal S8 .f32)

/-- The host's maximum over the lanes of segment k of row p is the pooled maximum. -/
theorem pooled (p : Fin 65536) (k : Fin 8) : val_main_v1 (F := Ideal) x0 (ix2 p k) = segMax x0 p k := by
  unfold val_main_v1
  refine (hostLaneMax_apply (val_main_v0 (F := Ideal) x0) (val_main_cst (F := Ideal)) _ (by decide) _ p k).trans ?_
  unfold segMax
  simp only [val_main_v0_apply, idx_split, val_main_cst_apply]
  rfl

/-- The contraction at (p, g): the sum over k of the pooled maxima times row g of the weights. -/
theorem contracted (p : Fin 65536) (g : Fin 8) :
    val_main_v3 (F := Ideal) x0 x1 (ix2 p g) = ∑ k : Fin 8, segMax x0 p k * x1 (ix2 g k) := by
  rw [val_main_v3_apply]
  refine Finset.sum_congr rfl fun k _ => ?_
  rw [idx_lhs, idx_rhs, pooled, val_main_v2_apply, idx_transpose]

/-- The reference's result array, index by index, is the segment gate of its arguments. -/
theorem stage_eq : val_main_v17 (F := Ideal) x0 x1 x2 = gated x0 x1 x2 := by
  funext i
  obtain ⟨p, q, rfl⟩ : ∃ (p : Fin 65536) (q : Fin 1024), i = ix2 p q := ⟨i 0, i 1, eq_ix2 i⟩
  obtain ⟨g, s, rfl⟩ := exists_col q
  rw [gated_apply, val_main_v17_apply, val_main_v16_apply, idx_merge, val_main_v15_apply, val_main_v0_apply, idx_split,
    val_main_v14_apply, idx_lanes, val_main_v13_apply, idx_column, val_main_v12_apply, val_main_v11_apply,
    val_main_cst_1_apply, val_main_v10_apply, val_main_v9_apply, val_main_cst_0_apply, val_main_v8_apply,
    val_main_v7_apply, val_main_v6_apply, val_main_v5_apply, idx_rows, val_main_v4_apply, idx_bias, contracted]
  unfold gate
  rw [Ideal.ofBits_def, Ideal.ofBits_one_f32]
  rfl

end Cert.ReferenceIdeal.Stage

end
-- ==== Proof.lean ====
/- The kernel and its reference compute one function of (x, W, b) over the extended reals.

   x is [65536, 1024]; each row is eight segments of 128 lanes. Both programs pool each segment's maximum (from −∞),
   send the eight maxima of a row through the 8×8 weights and the bias, take the logistic, scale every entry by its own
   segment's gate and add it back:

       out[p, 128·g + s] = x[p, 128·g + s] + x[p, 128·g + s] · logistic (Σ_k max_k(p) · W[g, k] + b[g]).

   They differ in how they spell it. The kernel works on blocks of 1024 rows, forms the products max_k(p) · W[g, k]
   over [row, g, k] and sums over k, and applies one logistic operation; the reference contracts the maxima with the
   transposed weights and writes the logistic as 1 / (1 + exp (−z)). At the ideal instance a sum over k is a sum over k
   however it is arranged, and the logistic IS 1 / (1 + exp (−z)) by definition, so no law of arithmetic beyond those
   is needed and the finiteness of the inputs is never used.

   SegGate states the function once, for any number of rows, and shows a row's result depends on that row alone; Pay
   shows the kernel body's stored block is that function of its loaded block; Blocks carries the 64 blocks to the whole
   array; Ref shows the reference's last stage is the same function. The three frames: the two kernel programs' are the
   generated frames, the reference's is its generated run with the result dropped; no operation was rewritten by the
   idealization, so the fourth conjunct is trivial. -/
import proofs.«150787_j47124381172385_1_alg».proof.Defs
import proofs.«150787_j47124381172385_1_alg».proof.Proof.Gen.Kernel
import proofs.«150787_j47124381172385_1_alg».proof.Proof.Gen.Kernel.Skeleton
import proofs.«150787_j47124381172385_1_alg».proof.Proof.Gen.Kernel.Launch
import proofs.«150787_j47124381172385_1_alg».proof.Proof.Gen.Kernel.Points
import proofs.«150787_j47124381172385_1_alg».proof.Proof.Gen.Kernel.Frame
import proofs.«150787_j47124381172385_1_alg».proof.Proof.Gen.KernelIdeal
import proofs.«150787_j47124381172385_1_alg».proof.Proof.Gen.KernelIdeal.Skeleton
import proofs.«150787_j47124381172385_1_alg».proof.Proof.Gen.KernelIdeal.Launch
import proofs.«150787_j47124381172385_1_alg».proof.Proof.Gen.KernelIdeal.Points
import proofs.«150787_j47124381172385_1_alg».proof.Proof.Gen.KernelIdeal.Frame
import proofs.«150787_j47124381172385_1_alg».proof.Proof.Gen.ReferenceIdeal
import proofs.«150787_j47124381172385_1_alg».proof.Proof.Gen.Pre_finite_inputs
import proofs.«150787_j47124381172385_1_alg».proof.Proof.Gen.KernelIdeal.Value
import proofs.«150787_j47124381172385_1_alg».proof.Proof.Gen.ReferenceIdeal.Run
import proofs.«150787_j47124381172385_1_alg».proof.Proof.Gen.ReferenceIdeal.Read
import proofs.«150787_j47124381172385_1_alg».proof.Proof.Blocks
import proofs.«150787_j47124381172385_1_alg».proof.Proof.Ref
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference runs, and keeps its arguments: its generated run with the result dropped
    exact fun m ρ _ =>
      (θ_run Cert.ReferenceIdeal.defs _ _).mono (fun _ h c => (h c).2) (Cert.ReferenceIdeal.Value.run (F := Ideal) m ρ)
  · -- both runs end at the segment gate of the arguments, which agree
    intro m ρ m' ρ' _ hagree
    refine ⟨fun c => Cert.KernelIdeal.Whole.result m c, Cert.KernelIdeal.Whole.run m ρ, ?_⟩
    refine (θ_run Cert.ReferenceIdeal.defs _ _).mono (fun _ h c => ⟨(h c).1.trans ?_, (h c).2⟩)
      (Cert.ReferenceIdeal.Value.run (F := Ideal) m' ρ')
    refine ((Cert.ReferenceIdeal.Read.val_main_v17_eq _ _ _).trans (Cert.ReferenceIdeal.Stage.stage_eq _ _ _)).trans ?_
    rw [(hagree c).1, (hagree c).2.1, (hagree c).2.2]⟩

end Cert.Proof

end
